-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x40 : Shape := ⟨2, ![131072, 40]⟩
abbrev S1024x16 : Shape := ⟨2, ![1024, 16]⟩
abbrev S40 : Shape := ⟨1, ![40]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel

variable [Facts]

def fn {F : FTy → Type} [FloatOps F] (main_arg0 : IVec S131072x40 32) (main_arg1 : FVec F S1024x16 .f32) (main_arg2 : IVec S40 32) : IVec S_ 1 :=
  let main_v0 : FVec F S1024x16 .f32 := Host.absf main_arg1
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  main_v3
-- ==== Kernel.lean ====
abbrev S131072x40 : Shape := ⟨2, ![131072, 40]⟩
abbrev S1024x16 : Shape := ⟨2, ![1024, 16]⟩
abbrev S40 : Shape := ⟨1, ![40]⟩
abbrev S_ : Shape := ⟨0, ![]⟩
abbrev S40x1 : Shape := ⟨2, ![40, 1]⟩
abbrev S40x16 : Shape := ⟨2, ![40, 16]⟩
abbrev S1x640 : Shape := ⟨2, ![1, 640]⟩
abbrev S640 : Shape := ⟨1, ![640]⟩
abbrev S40x640 : Shape := ⟨2, ![40, 640]⟩
abbrev S131072x640 : Shape := ⟨2, ![131072, 640]⟩
abbrev S2048x40 : Shape := ⟨2, ![2048, 40]⟩
abbrev S2048x640 : Shape := ⟨2, ![2048, 640]⟩

abbrev nBuf : Space → Nat
  | .hbm => 40
  | .vmem => 6
  | .smem => 0
  | _ => 0

abbrev bufTy : (tb : Table) → Fin (tcTables nBuf tb) → BufTy
  | .hbm, ⟨0, _⟩ => ⟨S131072x40, .i32⟩
  | .hbm, ⟨1, _⟩ => ⟨S1024x16, .f32⟩
  | .hbm, ⟨2, _⟩ => ⟨S40, .i32⟩
  | .hbm, ⟨3, _⟩ => ⟨S_, .i32⟩
  | .hbm, ⟨4, _⟩ => ⟨S40, .i32⟩
  | .hbm, ⟨5, _⟩ => ⟨S40, .i1⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S40, .i32⟩
  | .hbm, ⟨10, _⟩ => ⟨S40x1, .i32⟩
  | .hbm, ⟨11, _⟩ => ⟨S40x16, .f32⟩
  | .hbm, ⟨12, _⟩ => ⟨S1x640, .f32⟩
  | .hbm, ⟨13, _⟩ => ⟨S640, .i32⟩
  | .hbm, ⟨14, _⟩ => ⟨S1x640, .i32⟩
  | .hbm, ⟨15, _⟩ => ⟨S_, .i32⟩
  | .hbm, ⟨16, _⟩ => ⟨S_, .i32⟩
  | .hbm, ⟨17, _⟩ => ⟨S1x640, .i32⟩
  | .hbm, ⟨18, _⟩ => ⟨S1x640, .i32⟩
  | .hbm, ⟨19, _⟩ => ⟨S1x640, .i32⟩
  | .hbm, ⟨20, _⟩ => ⟨S_, .i32⟩
  | .hbm, ⟨21, _⟩ => ⟨S1x640, .i32⟩
  | .hbm, ⟨22, _⟩ => ⟨S1x640, .i1⟩
  | .hbm, ⟨23, _⟩ => ⟨S1x640, .i32⟩
  | .hbm, ⟨24, _⟩ => ⟨S1x640, .i32⟩
  | .hbm, ⟨25, _⟩ => ⟨S_, .i32⟩
  | .hbm, ⟨26, _⟩ => ⟨S1x640, .i32⟩
  | .hbm, ⟨27, _⟩ => ⟨S1x640, .i1⟩
  | .hbm, ⟨28, _⟩ => ⟨S1x640, .i1⟩
  | .hbm, ⟨29, _⟩ => ⟨S_, .i32⟩
  | .hbm, ⟨30, _⟩ => ⟨S1x640, .i32⟩
  | .hbm, ⟨31, _⟩ => ⟨S1x640, .i32⟩
  | .hbm, ⟨32, _⟩ => ⟨S1x640, .i32⟩
  | .hbm, ⟨33, _⟩ => ⟨S40, .i32⟩
  | .hbm, ⟨34, _⟩ => ⟨S40x1, .i32⟩
  | .hbm, ⟨35, _⟩ => ⟨S40x640, .i32⟩
  | .hbm, ⟨36, _⟩ => ⟨S40x640, .i32⟩
  | .hbm, ⟨37, _⟩ => ⟨S40x640, .i1⟩
  | .hbm, ⟨38, _⟩ => ⟨S40x640, .bf16⟩
  | .hbm, ⟨39, _⟩ => ⟨S131072x640, .f32⟩
  | .local _ .vmem, ⟨0, _⟩ => ⟨S2048x40, .i32⟩
  | .local _ .vmem, ⟨1, _⟩ => ⟨S2048x40, .i32⟩
  | .local _ .vmem, ⟨2, _⟩ => ⟨S40x640, .bf16⟩
  | .local _ .vmem, ⟨3, _⟩ => ⟨S1x640, .f32⟩
  | .local _ .vmem, ⟨4, _⟩ => ⟨S2048x640, .f32⟩
  | .local _ .vmem, ⟨5, _⟩ => ⟨S2048x640, .f32⟩
  | _, _ => ⟨S131072x40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x40 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S40 : S_.BroadcastsInDim S40 (![] : Fin 0 → Fin S40.rank)
  bcast_S40_S40x1_0 : S40.BroadcastsInDim S40x1 (![0] : Fin 1 → Fin S40x1.rank)
  shapeCasts_S40x16_S1x640 : S40x16.ShapeCasts S1x640
  bcast_S640_S1x640_1 : S640.BroadcastsInDim S1x640 (![1] : Fin 1 → Fin S1x640.rank)
  bcast_S_S1x640 : S_.BroadcastsInDim S1x640 (![] : Fin 0 → Fin S1x640.rank)
  bcast_S1x640_S40x640_0_1 : S1x640.BroadcastsInDim S40x640 (![0, 1] : Fin 2 → Fin S40x640.rank)
  bcast_S40x1_S40x640_0_1 : S40x1.BroadcastsInDim S40x640 (![0, 1] : Fin 2 → Fin S40x640.rank)
  inb_S2048x40_S2048x40_0_0 : ∀ a, (![0, 0] : Fin 2 → Nat) a + S2048x40.size a ≤ S2048x40.size a
  h_S2048x40 : 0 < S2048x40.numel
  inb_S40x640_S40x640_0_0 : ∀ a, (![0, 0] : Fin 2 → Nat) a + S40x640.size a ≤ S40x640.size a
  h_S40x640 : 0 < S40x640.numel
  shapeCasts_S40x640_S40x640 : S40x640.ShapeCasts S40x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  inb_S2048x640_S2048x640_0_0 : ∀ a, (![0, 0] : Fin 2 → Nat) a + S2048x640.size a ≤ S2048x640.size a
  h_S2048x640 : 0 < S2048x640.numel
  gather_S1024x16_S40x1_S40x16_1_0_n_n_0_1_116_wf : GatherDims.WF S1024x16 S40x1 S40x16 [1] [0] [] [0] [] 1 ![1, 16]
  dot_S2048x40_S40x640_S2048x640_1_0_0_1_n_n_wf : DotDims.WF S2048x40 S40x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x40.size a ≤ S131072x40.size a
  hwx0_0 : ∀ i : grid0.Coords, EltTy.bits .i32 = 32 ∨ (Rect.block (s := S131072x40) S2048x40.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x640.size a ≤ S40x640.size a
  hwx0_1 : ∀ i : grid0.Coords, EltTy.bits .bf16 = 32 ∨ (Rect.block (s := S40x640) S40x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x640.size a ≤ S131072x640.size a
  hwx0_3 : ∀ i : grid0.Coords, EltTy.bits .f32 = 32 ∨ (Rect.block (s := S131072x640) S2048x640.size (cc0_transform_3 i) (hinb0_3 i)).WholeWords (EltTy.packing .f32)

variable [Facts₀]

def gather_S1024x16_S40x1_S40x16_1_0_n_n_0_1_116 : GatherDims S1024x16 S40x1 S40x16 where
  offsetDims := [1]
  collapsedSliceDims := [0]
  operandBatchingDims := []
  startIndicesBatchingDims := []
  startIndexMap := [0]
  indexVectorDim := 1
  sliceSizes := ![1, 16]
  wf := gather_S1024x16_S40x1_S40x16_1_0_n_n_0_1_116_wf
def dot_S2048x40_S40x640_S2048x640_1_0_0_1_n_n : DotDims S2048x40 S40x640 S2048x640 where
  lhsContracting := [1]
  rhsContracting := [0]
  lhsNonContracting := [0]
  rhsNonContracting := [1]
  lhsBatch := []
  rhsBatch := []
  wf := dot_S2048x40_S40x640_S2048x640_1_0_0_1_n_n_wf

abbrev win0_0 : Pipeline.Window sig grid0 :=
  Pipeline.Window.ofSpec (Memref.whole main_arg0) S2048x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S40x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x40 : Shape := ⟨2, ![131072, 40]⟩
abbrev S1024x16 : Shape := ⟨2, ![1024, 16]⟩
abbrev S40 : Shape := ⟨1, ![40]⟩
abbrev S_ : Shape := ⟨0, ![]⟩
abbrev S40x1 : Shape := ⟨2, ![40, 1]⟩
abbrev S40x16 : Shape := ⟨2, ![40, 16]⟩
abbrev S1x640 : Shape := ⟨2, ![1, 640]⟩
abbrev S640 : Shape := ⟨1, ![640]⟩
abbrev S40x640 : Shape := ⟨2, ![40, 640]⟩
abbrev S131072x640 : Shape := ⟨2, ![131072, 640]⟩
abbrev S2456x40 : Shape := ⟨2, ![2456, 40]⟩
abbrev S2456x640 : Shape := ⟨2, ![2456, 640]⟩

abbrev nBuf : Space → Nat
  | .hbm => 44
  | .vmem => 5
  | .smem => 0
  | _ => 0

abbrev bufTy : (tb : Table) → Fin (tcTables nBuf tb) → BufTy
  | .hbm, ⟨0, _⟩ => ⟨S131072x40, .i32⟩
  | .hbm, ⟨1, _⟩ => ⟨S1024x16, .f32⟩
  | .hbm, ⟨2, _⟩ => ⟨S40, .i32⟩
  | .hbm, ⟨3, _⟩ => ⟨S_, .i32⟩
  | .hbm, ⟨4, _⟩ => ⟨S40, .i32⟩
  | .hbm, ⟨5, _⟩ => ⟨S40, .i1⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S40, .i32⟩
  | .hbm, ⟨10, _⟩ => ⟨S40x1, .i32⟩
  | .hbm, ⟨11, _⟩ => ⟨S40x16, .f32⟩
  | .hbm, ⟨12, _⟩ => ⟨S1x640, .f32⟩
  | .hbm, ⟨13, _⟩ => ⟨S640, .i32⟩
  | .hbm, ⟨14, _⟩ => ⟨S1x640, .i32⟩
  | .hbm, ⟨15, _⟩ => ⟨S_, .i32⟩
  | .hbm, ⟨16, _⟩ => ⟨S_, .i32⟩
  | .hbm, ⟨17, _⟩ => ⟨S1x640, .i32⟩
  | .hbm, ⟨18, _⟩ => ⟨S1x640, .i32⟩
  | .hbm, ⟨19, _⟩ => ⟨S1x640, .i32⟩
  | .hbm, ⟨20, _⟩ => ⟨S_, .i32⟩
  | .hbm, ⟨21, _⟩ => ⟨S1x640, .i32⟩
  | .hbm, ⟨22, _⟩ => ⟨S1x640, .i1⟩
  | .hbm, ⟨23, _⟩ => ⟨S1x640, .i32⟩
  | .hbm, ⟨24, _⟩ => ⟨S1x640, .i32⟩
  | .hbm, ⟨25, _⟩ => ⟨S_, .i32⟩
  | .hbm, ⟨26, _⟩ => ⟨S1x640, .i32⟩
  | .hbm, ⟨27, _⟩ => ⟨S1x640, .i1⟩
  | .hbm, ⟨28, _⟩ => ⟨S1x640, .i1⟩
  | .hbm, ⟨29, _⟩ => ⟨S_, .i32⟩
  | .hbm, ⟨30, _⟩ => ⟨S1x640, .i32⟩
  | .hbm, ⟨31, _⟩ => ⟨S1x640, .i32⟩
  | .hbm, ⟨32, _⟩ => ⟨S1x640, .i32⟩
  | .hbm, ⟨33, _⟩ => ⟨S40, .i32⟩
  | .hbm, ⟨34, _⟩ => ⟨S40x1, .i32⟩
  | .hbm, ⟨35, _⟩ => ⟨S40x640, .i32⟩
  | .hbm, ⟨36, _⟩ => ⟨S40x640, .i32⟩
  | .hbm, ⟨37, _⟩ => ⟨S40x640, .i1⟩
  | .hbm, ⟨38, _⟩ => ⟨S_, .f32⟩
  | .hbm, ⟨39, _⟩ => ⟨S40x640, .f32⟩
  | .hbm, ⟨40, _⟩ => ⟨S40x640, .f32⟩
  | .hbm, ⟨41, _⟩ => ⟨S40x640, .f32⟩
  | .hbm, ⟨42, _⟩ => ⟨S131072x40, .f32⟩
  | .hbm, ⟨43, _⟩ => ⟨S131072x640, .f32⟩
  | .local _ .vmem, ⟨0, _⟩ => ⟨S2456x40, .f32⟩
  | .local _ .vmem, ⟨1, _⟩ => ⟨S2456x40, .f32⟩
  | .local _ .vmem, ⟨2, _⟩ => ⟨S40x640, .f32⟩
  | .local _ .vmem, ⟨3, _⟩ => ⟨S2456x640, .f32⟩
  | .local _ .vmem, ⟨4, _⟩ => ⟨S2456x640, .f32⟩
  | _, _ => ⟨S131072x40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2456x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2456x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S40 : S_.BroadcastsInDim S40 (![] : Fin 0 → Fin S40.rank)
  bcast_S40_S40x1_0 : S40.BroadcastsInDim S40x1 (![0] : Fin 1 → Fin S40x1.rank)
  shapeCasts_S40x16_S1x640 : S40x16.ShapeCasts S1x640
  bcast_S640_S1x640_1 : S640.BroadcastsInDim S1x640 (![1] : Fin 1 → Fin S1x640.rank)
  bcast_S_S1x640 : S_.BroadcastsInDim S1x640 (![] : Fin 0 → Fin S1x640.rank)
  bcast_S1x640_S40x640_0_1 : S1x640.BroadcastsInDim S40x640 (![0, 1] : Fin 2 → Fin S40x640.rank)
  bcast_S40x1_S40x640_0_1 : S40x1.BroadcastsInDim S40x640 (![0, 1] : Fin 2 → Fin S40x640.rank)
  bcast_S_S40x640 : S_.BroadcastsInDim S40x640 (![] : Fin 0 → Fin S40x640.rank)
  inb_S2456x40_S2456x40_0_0 : ∀ a, (![0, 0] : Fin 2 → Nat) a + S2456x40.size a ≤ S2456x40.size a
  h_S2456x40 : 0 < S2456x40.numel
  shapeCasts_S2456x40_S2456x40 : S2456x40.ShapeCasts S2456x40
  inb_S40x640_S40x640_0_0 : ∀ a, (![0, 0] : Fin 2 → Nat) a + S40x640.size a ≤ S40x640.size a
  h_S40x640 : 0 < S40x640.numel
  shapeCasts_S40x640_S40x640 : S40x640.ShapeCasts S40x640
  inb_S2456x640_S2456x640_0_0 : ∀ a, (![0, 0] : Fin 2 → Nat) a + S2456x640.size a ≤ S2456x640.size a
  h_S2456x640 : 0 < S2456x640.numel
  gather_S1024x16_S40x1_S40x16_1_0_n_n_0_1_116_wf : GatherDims.WF S1024x16 S40x1 S40x16 [1] [0] [] [0] [] 1 ![1, 16]
  dot_S2456x40_S40x640_S2456x640_1_0_0_1_n_n_wf : DotDims.WF S2456x40 S40x640 S2456x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2456x40.size a < S131072x40.size a
  hwx0_0 : ∀ i : grid0.Coords, EltTy.bits .f32 = 32 ∨ (Rect.unit (s := S131072x40) (fun a => cc0_transform_0 i a * S2456x40.size a) (fun a => (Pipeline.Clip.of (cc0_transform_0 i a) (S2456x40.size a) (S131072x40.size a)).extent (S2456x40.size a)) fun a => Pipeline.Clip.inb (Pipeline.Clip.ok_of (hstart0_0 i a))).WholeWords (EltTy.packing .f32)
  hwxs0_0 : ∀ i : grid0.Coords, EltTy.bits .f32 = 32 ∨ (Rect.unit (s := S2456x40) (fun _ => 0) (fun a => (Pipeline.Clip.of (cc0_transform_0 i a) (S2456x40.size a) (S131072x40.size a)).extent (S2456x40.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x640.size a ≤ S40x640.size a
  hwx0_1 : ∀ i : grid0.Coords, EltTy.bits .f32 = 32 ∨ (Rect.block (s := S40x640) S40x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2456x640.size a < S131072x640.size a
  hwx0_2 : ∀ i : grid0.Coords, EltTy.bits .f32 = 32 ∨ (Rect.unit (s := S131072x640) (fun a => cc0_transform_2 i a * S2456x640.size a) (fun a => (Pipeline.Clip.of (cc0_transform_2 i a) (S2456x640.size a) (S131072x640.size a)).extent (S2456x640.size a)) fun a => Pipeline.Clip.inb (Pipeline.Clip.ok_of (hstart0_2 i a))).WholeWords (EltTy.packing .f32)
  hwxs0_2 : ∀ i : grid0.Coords, EltTy.bits .f32 = 32 ∨ (Rect.unit (s := S2456x640) (fun _ => 0) (fun a => (Pipeline.Clip.of (cc0_transform_2 i a) (S2456x640.size a) (S131072x640.size a)).extent (S2456x640.size a)) fun a => (Nat.zero_add _).trans_le (Pipeline.Clip.extent_le (Pipeline.Clip.ok_of (hstart0_2 i a)))).WholeWords (EltTy.packing .f32)

variable [Facts₀]

def gather_S1024x16_S40x1_S40x16_1_0_n_n_0_1_116 : GatherDims S1024x16 S40x1 S40x16 where
  offsetDims := [1]
  collapsedSliceDims := [0]
  operandBatchingDims := []
  startIndicesBatchingDims := []
  startIndexMap := [0]
  indexVectorDim := 1
  sliceSizes := ![1, 16]
  wf := gather_S1024x16_S40x1_S40x16_1_0_n_n_0_1_116_wf
def dot_S2456x40_S40x640_S2456x640_1_0_0_1_n_n : DotDims S2456x40 S40x640 S2456x640 where
  lhsContracting := [1]
  rhsContracting := [0]
  lhsNonContracting := [0]
  rhsNonContracting := [1]
  lhsBatch := []
  rhsBatch := []
  wf := dot_S2456x40_S40x640_S2456x640_1_0_0_1_n_n_wf

abbrev win0_0 : Pipeline.Window sig grid0 :=
  Pipeline.Window.ofSpecClip (Memref.whole main_v17) S2456x40.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v16) S40x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v18) S2456x640.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Spec.lean ====
/-
  The mathematics both programs compute, and the one law that joins them.

  Out of a table of integers x[b, d], a 0/1 mask M[d, j] and a row of reals g[j], the kernel forms
      ( Σ_d x[b, d] · M[d, j] ) · g[j]
  (the mask read as the numbers 0 and 1), while the reference forms
      Σ_d x[b, d] · ( g[j] where M[d, j] holds, else 0 ).
  Over the reals the two agree term by term once the factor g[j] is moved inside the sum; over the extended
  reals that move is sound because every quantity in sight is a real number: x is an integer, the mask is 0 or 1,
  and g[j] is assumed real.
-/
import Idealize.ShloMosaic.PureOps.Ideal
import Idealize.ShloMosaic.Lib.ValueIdx
import Idealize.ShloMosaic.Lib.Pipeline.Value
import Idealize.ShloMosaic.PureOps.Ideal.Laws

noncomputable section

open scoped BigOperators

namespace ScaleSpec

open Idealize.ShloMosaic Idealize.ShloMosaic.ValueIdx

/-- The table of feature values: 131072 rows of 40. -/
abbrev SX : Shape := ⟨2, ![131072, 40]⟩
/-- The mask and the masked row table: 40 rows of 640 lanes. -/
abbrev SM : Shape := ⟨2, ![40, 640]⟩
/-- The gathered row: one row of 640 lanes. -/
abbrev SG : Shape := ⟨2, ![1, 640]⟩
/-- The result: 131072 rows of 640 lanes. -/
abbrev SO : Shape := ⟨2, ![131072, 640]⟩
/-- A scalar. -/
abbrev S0 : Shape := ⟨0, ![]⟩

/-- Row `p` of `A` against column `q` of `B`. -/
def dotAt (A : SX.Idx → EReal) (B : SM.Idx → EReal) (p : Fin 131072) (q : Fin 640) : EReal :=
  ∑ k : Fin 40, A (ix2 p k) * B (ix2 k q)

/-- The product of `A` and `B`, as a whole array. -/
def dotVal (A : SX.Idx → EReal) (B : SM.Idx → EReal) : SO.Idx → EReal :=
  fun i => dotAt A B (i 0) (i 1)

/-- The product of `A` and `B`, each lane then scaled by the row `g`. -/
def scaledVal (A : SX.Idx → EReal) (B : SM.Idx → EReal) (g : SG.Idx → EReal) : SO.Idx → EReal :=
  fun i => dotAt A B (i 0) (i 1) * g (ix2 0 (i 1))

/-- A finite sum of real numbers, read in the extended reals, is the real sum. -/
theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A one-bit word is 0 or 1. -/
theorem bit_cases (b : BitVec 1) : b = 0#1 ∨ b = 1#1 := by
  revert b; decide

/-- THE LAW. With integers `n k`, bits `M k` and a real `r`: gating the integers by the bits, summing and then
    scaling by `r` is summing the integers against `r` gated by the bits. -/
theorem gated_scale (n : Fin 40 → ℝ) (M : Fin 40 → BitVec 1) (r : ℝ) :
    (∑ k, ((n k : ℝ) : EReal) * ((((M k).toNat : ℕ) : ℝ) : EReal)) * (r : EReal)
      = ∑ k, ((n k : ℝ) : EReal) * (if M k = 1#1 then (r : EReal) else 0) := by
  have hL : ∀ k, ((n k : ℝ) : EReal) * ((((M k).toNat : ℕ) : ℝ) : EReal) = ((n k * ((M k).toNat : ℝ) : ℝ) : EReal) :=
    fun k => (EReal.coe_mul _ _).symm
  have hR : ∀ k, ((n k : ℝ) : EReal) * (if M k = 1#1 then (r : EReal) else 0)
      = ((n k * (if M k = 1#1 then r else 0) : ℝ) : EReal) := fun k => by
    split
    · exact (EReal.coe_mul _ _).symm
    · rw [mul_zero, mul_zero, EReal.coe_zero]
  simp only [hL, hR, sum_coe]
  rw [← EReal.coe_mul]
  refine congrArg _ ?_
  rw [Finset.sum_mul]
  refine Finset.sum_congr rfl fun k _ => ?_
  rcases bit_cases (M k) with h | h
  · rw [h]; simp
  · rw [h]; simp

/-- The two programs' values are one array: for integers `X`, a mask `M` and a row `ge` of real numbers, the
    kernel's gated-then-scaled product is the reference's product against the masked row table. -/
theorem kernel_eq_reference (X : IVec SX 32) (M : IVec SM 1) (ge : FVec Ideal SG .f32)
    (hb1 : SG.BroadcastsInDim SM (![0, 1] : Fin 2 → Fin SM.rank)) (hb0 : S0.BroadcastsInDim SM (![] : Fin 0 → Fin SM.rank))
    (hfin : ∀ q : Fin 640, ∃ r : ℝ, ge (ix2 0 q) = (r : EReal)) :
    scaledVal (sitofp (F := Ideal) .bf16 X) (uitofp (F := Ideal) .bf16 M) ge
      = dotVal (sitofp (F := Ideal) .f32 X)
          (select M (broadcastInDim SM ![0, 1] hb1 ge)
            (broadcastInDim SM ![] hb0 (constant (F := Ideal) S0 .f32 0x00000000#32))) := by
  funext i
  obtain ⟨p, q, rfl⟩ : ∃ (p : Fin 131072) (q : Fin 640), i = ix2 p q := ⟨i 0, i 1, eq_ix2 i⟩
  obtain ⟨r, hr⟩ := hfin q
  -- the row entry every mask position of lane q reads
  have hrow : ∀ k : Fin 40, broadcastInDim SM ![0, 1] hb1 ge (ix2 k q) = (r : EReal) := fun k => by
    rw [broadcastInDim_apply ![0, 1] hb1 ge (ix2 k q) (ix2 0 q) (fun a => by
      match a with
      | ⟨0, _⟩ => rfl
      | ⟨1, _⟩ => rfl)]
    exact hr
  -- the zero every other position reads
  have hzero : ∀ k : Fin 40,
      broadcastInDim SM ![] hb0 (constant (F := Ideal) S0 .f32 0x00000000#32) (ix2 k q) = (0 : EReal) := fun k =>
    Ideal.ofBits_zero_f32
  show dotAt _ _ p q * ge (ix2 0 q) = dotAt _ _ p q
  unfold dotAt
  rw [hr]
  refine (gated_scale (fun k => ((X (ix2 p k)).toInt : ℝ)) (fun k => M (ix2 k q)) r).trans ?_
  refine Finset.sum_congr rfl fun k _ => ?_
  rw [select_apply, hrow k, hzero k]
  rfl

end ScaleSpec

end
-- ==== Proof.KernelValue.lean ====
/-
  What the idealized kernel leaves in its result array, as one function of the arrays the region finds.

  At grid point t the body multiplies the 2048 × 40 block of integer feature values (read as reals) by the 40 × 640
  0/1 selection matrix and scales lane j of every row by the gathered row's entry j. The 64 blocks tile the
  131072 rows, so the result array ends holding, at (b, j), ( Σ_d x[b, d] · s[d, j] ) · ge[j].
-/
import proofs.«140881_g2000104622588471_pallasbulk_207_2_alg».proof.Proof.Gen.KernelIdeal.Value
import proofs.«140881_g2000104622588471_pallasbulk_207_2_alg».proof.Proof.LibPlainDot
import proofs.«140881_g2000104622588471_pallasbulk_207_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The table of integer feature values as the region finds it. -/
abbrev xarr (c : Dev nD) : S131072x40.Idx → BitVec 32 := V m c main_arg0
/-- The 0/1 selection matrix as the region finds it. -/
abbrev sarr (c : Dev nD) : S40x640.Idx → EReal := V m c main_v16
/-- The gathered row as the region finds it. -/
abbrev garr (c : Dev nD) : S1x640.Idx → EReal := V m c main_v7

/-- The whole result array: entry (b, j) is ( Σ_d x[b, d] · s[d, j] ) · ge[j]. -/
def G (c : Dev nD) : S131072x640.Idx → EReal :=
  ScaleSpec.scaledVal (sitofp (F := Ideal) .bf16 (xarr m c)) (sarr m c) (garr m c)

/-- The zero offsets of a whole-block access, as the constant function. -/
theorem zero_offsets : (![0, 0] : Fin 2 → Nat) = fun _ => 0 := funext fun a => by fin_cases a <;> rfl

/-- THE PAYLOAD AT AN INDEX. For any block of integers `x0`, any 40 × 640 block `x1` and any row `x2`, entry (p, q) of what
    the body stores is the sum over the 40 contracted positions of the integer at (p, k), read as a real, times
    `x1` at (k, q), the whole then scaled by the row's entry q: the matrix product into the zero accumulator is the
    bare contraction sum, the two identity reshapes change nothing, and the row broadcast reads row 0. -/
theorem pay_apply (x0 : Vec Ideal S2048x40 .i32) (x1 : Vec Ideal S40x640 .bf16) (x2 : Vec Ideal S1x640 .f32)
    (p : Fin 2048) (q : Fin 640) :
    k0_pay1 (F := Ideal) x0 x1 x2 (ix2 p q)
      = (∑ k : Fin 40, (((x0 (ix2 p k)).toInt : ℝ) : EReal) * x1 (ix2 k q)) * x2 (ix2 0 q) := by
  unfold k0_pay1
  rw [mulf_apply, shapeCast_self, shapeCast_self, broadcastTo_1b_ab_apply]
  refine congrArg (· * x2 (ix2 0 q)) ?_
  refine (Ideal.matmul_constant_zero_apply (φ₁ := .bf16) (φ₂ := .bf16) dot_S2048x40_S40x640_S2048x640_1_0_0_1_n_n none
    (sitofp .bf16 x0) x1 (ix2 p q)).trans ?_
  refine (PlainDot.sum_eq dot_S2048x40_S40x640_S2048x640_1_0_0_1_n_n rfl rfl rfl rfl rfl rfl _ _ p q).trans ?_
  rfl

/-- The printed index maps in closed form, decided over the 64 grid points: the feature table's and the result's
    blocks move down the rows with the point, the selection matrix's and the gathered row's blocks never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point's number is below 64. -/
theorem point_lt (t : Fin cfg0.N) : t.val < 64 := lt_of_lt_of_eq t.isLt N_0

/-- Row 2048 · t + p, for p inside a block, is a row of the 131072. -/
theorem row_lt (t : Fin cfg0.N) (p : Fin 2048) : t.val * 2048 + p.val < 131072 := by
  have := point_lt t; have := p.isLt; omega

/-- The feature table's block at point `t`: its entry (p, k) is the table's entry (2048 · t + p, k). -/
theorem xblk_apply (c : Dev nD) (t : Fin cfg0.N) (p : Fin 2048) (k : Fin 40) :
    (iblk m c 0 t : Vec Ideal S2048x40 .i32) (ix2 p k) = xarr m c (ix2 ⟨t.val * 2048 + p.val, row_lt t p⟩ k) := by
  obtain ⟨e0, e1, -⟩ := block_indices t
  unfold iblk
  rw [View.read_apply]
  show V m c main_arg0 _ = V m c main_arg0 _
  refine congrArg (V m c main_arg0) ?_
  funext a
  apply Fin.ext
  match a with
  | ⟨0, _⟩ => show win0_0.index t (0 : Fin 2) * 2048 + 1 * p.val = t.val * 2048 + p.val; omega
  | ⟨1, _⟩ => show win0_0.index t (1 : Fin 2) * 40 + 1 * k.val = k.val; omega

/-- The selection matrix's one block is the whole matrix. -/
theorem sblk_apply (c : Dev nD) (t : Fin cfg0.N) (k : Fin 40) (q : Fin 640) :
    (iblk m c 1 t : Vec Ideal S40x640 .bf16) (ix2 k q) = sarr m c (ix2 k q) := by
  obtain ⟨-, -, e0, e1, -⟩ := block_indices t
  unfold iblk
  rw [View.read_apply]
  show V m c main_v16 _ = V m c main_v16 _
  refine congrArg (V m c main_v16) ?_
  funext a
  apply Fin.ext
  match a with
  | ⟨0, _⟩ => show win0_1.index t (0 : Fin 2) * 40 + 1 * k.val = k.val; omega
  | ⟨1, _⟩ => show win0_1.index t (1 : Fin 2) * 640 + 1 * q.val = q.val; omega

/-- The gathered row's one block is the whole row. -/
theorem gblk_apply (c : Dev nD) (t : Fin cfg0.N) (q : Fin 640) :
    (iblk m c 2 t : Vec Ideal S1x640 .f32) (ix2 0 q) = garr m c (ix2 0 q) := by
  obtain ⟨-, -, -, -, e0, e1, -⟩ := block_indices t
  unfold iblk
  rw [View.read_apply]
  show V m c main_v7 _ = V m c main_v7 _
  refine congrArg (V m c main_v7) ?_
  funext a
  apply Fin.ext
  match a with
  | ⟨0, _⟩ => show win0_2.index t (0 : Fin 2) * 1 + 1 * 0 = 0; omega
  | ⟨1, _⟩ => show win0_2.index t (1 : Fin 2) * 640 + 1 * q.val = q.val; omega

/-- `G` at an index, its sum written out: entry (P, q) is ( Σ_k x[P, k] · s[k, q] ) · g[q]. -/
theorem G_apply (c : Dev nD) (P : Fin 131072) (q : Fin 640) :
    G m c (ix2 P q)
      = (∑ k : Fin 40, (((xarr m c (ix2 P k)).toInt : ℝ) : EReal) * sarr m c (ix2 k q)) * garr m c (ix2 0 q) := rfl

/-- Where entry (p, q) of the result's block at point `t` sits in the result array: at (2048 · t + p, q). -/
theorem oemb_eq (t : Fin cfg0.N) (p : Fin 2048) (q : Fin 640) :
    ((cfg0.win 3).blk t).view.emb (ix2 p q) = (ix2 ⟨t.val * 2048 + p.val, row_lt t p⟩ q : S131072x640.Idx) := by
  obtain ⟨-, -, -, -, -, -, e0, e1⟩ := block_indices t
  funext a
  apply Fin.ext
  match a with
  | ⟨0, _⟩ => show win0_3.index t (0 : Fin 2) * 2048 + 1 * p.val = t.val * 2048 + p.val; omega
  | ⟨1, _⟩ => show win0_3.index t (1 : Fin 2) * 640 + 1 * q.val = q.val; omega

/-- WHAT POINT `t` WRITES BACK is block `t` of `G`. -/
theorem point_writes_block (c : Dev nD) (t : Fin cfg0.N) :
    (dats m 0 c).flushed 3 t = ((cfg0.win 3).blk t).view.read (Elt Ideal) (G m c) := by
  rw [flushed3]
  unfold out0_3
  rw [View.canon_unit_zero zero_offsets]
  simp only [View.ld_unit_zero (S := S2048x40) zero_offsets, View.ld_unit_zero (S := S40x640) zero_offsets, View.ld_unit_zero (S := S1x640) zero_offsets]
  funext y
  obtain ⟨p, q, rfl⟩ : ∃ (p : Fin 2048) (q : Fin 640), y = ix2 p q := ⟨y 0, y 1, eq_ix2 y⟩
  show k0_pay1 (F := Ideal) (iblk m c 0 t) (iblk m c 1 t) (iblk m c 2 t) (ix2 p q)
    = G m c (((cfg0.win 3).blk t).view.emb (ix2 p q))
  rw [oemb_eq t p q]
  refine (pay_apply _ _ _ p q).trans ?_
  refine Eq.trans ?_ (G_apply m c ⟨t.val * 2048 + p.val, row_lt t p⟩ q).symm
  rw [gblk_apply m c t q]
  refine congrArg (· * garr m c (ix2 0 q)) ?_
  refine Finset.sum_congr rfl fun k _ => ?_
  rw [xblk_apply m c t p k, sblk_apply m c t k q]

/-- An index of the result array lies in point `t`'s block exactly when, on each axis, its coordinate lies in the block's
    range there. -/
theorem mem_block_iff (t : Fin cfg0.N) (i : S131072x640.Idx) :
    i ∈ ((cfg0.win 3).blk t).view.set ↔ ∀ a : Fin 2, win0_3.index t a * S2048x640.size a ≤ (i a).val
      ∧ (i a).val < win0_3.index t a * S2048x640.size a + S2048x640.size a := by
  show i ∈ ((View.whole main_v17).slice (win0_3.rect t)).set ↔ _
  rw [View.set_slice_whole, Rect.mem_set_unit]
  exact Iff.rfl

/-- THE BLOCKS TILE THE ROWS: row r of the result array lies in the block of point r / 2048, which writes back. -/
theorem rows_tiled (i : S131072x640.Idx) :
    ∃ t : Fin cfg0.N, (cfg0.win 3).flush t = true ∧ i ∈ ((cfg0.win 3).blk t).view.set := by
  have hi0 : (i 0).val < 131072 := idx2_lt0 i
  have hi1 : (i 1).val < 640 := idx2_lt1 i
  obtain ⟨t, ht⟩ : ∃ t : Fin cfg0.N, t.val = (i 0).val / 2048 :=
    ⟨⟨(i 0).val / 2048, lt_of_lt_of_eq (by omega) N_0.symm⟩, rfl⟩
  obtain ⟨-, -, -, -, -, -, e0, e1⟩ := block_indices t
  refine ⟨t, flush0_3 t, ?_⟩
  rw [mem_block_iff]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 640 ≤ (i 1).val ∧ (i 1).val < win0_3.index t (1 : Fin 2) * 640 + 640
    omega

/-- After the last write-back the result array holds `G`. -/
theorem final (c : Dev nD) : (dats m 0 c).arrAt 3 cfg0.N = G m c :=
  (dats m 0 c).arrAt_eq_of_cover 3 (G m c) (fun t _ => point_writes_block m c t) rows_tiled

/-- The kernel's run, its result array named. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.RefData.lean ====
/-
  The reference's one region: what the pipeline's buffers hold at each grid point.

  The region multiplies the 131072 × 40 table of feature values (as reals) by the 40 × 640 masked row table, in 54
  blocks of 2456 rows. 54 · 2456 exceeds 131072, so the last block reaches past the table's end: only its first 904
  rows are fetched and written back, and what the rest of a staging buffer holds is not named. The data below says,
  for each point, what each staging buffer holds after the body ON THE ROWS THAT ARE MOVED: the input block itself,
  the masked row table, and for the result the block of the whole-array product `G`.
-/
import proofs.«140881_g2000104622588471_pallasbulk_207_2_alg».proof.Proof.Gen.ReferenceIdeal.Frame
import proofs.«140881_g2000104622588471_pallasbulk_207_2_alg».proof.Proof.Spec

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The table of feature values as the region finds it (the host has already read the integers as reals). -/
abbrev xarr (c : Dev nD) : S131072x40.Idx → EReal := V m c main_v17
/-- The masked row table as the region finds it. -/
abbrev garr (c : Dev nD) : S40x640.Idx → EReal := V m c main_v16

/-- The whole-array product the region computes: entry (b, j) is Σ_d x[b, d] · gm[d, j]. -/
def G (c : Dev nD) : S131072x640.Idx → EReal := ScaleSpec.dotVal (xarr m c) (garr m c)

/-- The proof data of the one pipeline on core `c`: the arrays as the region finds them; after the body at point
    `t` the input buffers hold their blocks and the result's buffer holds block `t` of `G` — each, for the two
    windows whose last block is cut, filled out past the array's end with zeros that nothing reads. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (fun _ => (0 : EReal)) ((win0_2.blk t).view.read (Elt Ideal) (G m c)) := by
  dsimp only [dats]

/-- What point `t` writes back to the result array: block `t` of `G`, cut at the array's end. -/
theorem flushed2 (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  exact win0_2.cut_fill _ _ _

end Cert.ReferenceIdeal.Hand

end
-- ==== Proof.RefFrame.lean ====
/-
  The reference's one region runs: at every grid point the body, handed the staging buffers as the pipeline left
  them, multiplies the block of feature values by the masked row table and stores the product; on the rows the
  pipeline moves, that product is the block of the whole-array product.
-/
import proofs.«140881_g2000104622588471_pallasbulk_207_2_alg».proof.Proof.RefData
import proofs.«140881_g2000104622588471_pallasbulk_207_2_alg».proof.Proof.LibPlainDot
import proofs.«140881_g2000104622588471_pallasbulk_207_2_alg».proof.Proof.Gen.ReferenceIdeal.Skeleton
import Idealize.ShloMosaic.Lib.Pipeline.FrameBody
import Idealize.ShloMosaic.Lib.Tactic
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open scoped BigOperators

namespace Body

/-! ## The body on whole buffers -/

/-- Each of the body's three accesses starts at row 0 and column 0 of its buffer. -/
theorem zero_offsets : (![0, 0] : Fin 2 → Nat) = fun _ => 0 := funext fun a => by fin_cases a <;> rfl

set_option maxHeartbeats 1000000 in
/-- The body on three whole buffers, the first two holding `x0` and `x1` and the third anything: it loads the first
    two whole and overwrites the third, whole and unmasked, with the product of the two loads (the load of the third
    buffer before the store is read by nothing). The first two buffers are left as they were; the third ends holding
    the product of `x0` and `x1`, whatever it held. -/
theorem sound_kernel (c : Dev nD) (E : Set ℕ) (i : grid0.Coords)
    (arg1 : Memref sig .tc .vmem S2456x40 .f32) (harg1 : arg1.IsWhole)
    (arg2 : Memref sig .tc .vmem S40x640 .f32) (harg2 : arg2.IsWhole)
    (arg3 : Memref sig .tc .vmem S2456x640 .f32) (harg3 : arg3.IsWhole)
    (x0 : Vec Ideal S2456x40 .f32) (x1 : Vec Ideal S40x640 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 (F := Ideal) x0 x1)) -∗ K ⟨⟩))
      ⊢ wp frame (wpE (defs₀ (F := Ideal)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  -- the one store covers the whole third buffer, so what it holds afterwards is the stored value alone; a whole
  -- load reads the buffer's contents
  refine (View.read_writes_eq_canon _ _ _ (fun y => ⟨_, List.mem_singleton_self _, View.mem_set_unit_zero zero_offsets inb_S2456x640_S2456x640_0_0 y⟩)).trans ?_
  refine (View.canon_unit_zero zero_offsets _ _).trans ?_
  rw [View.readAt_eq_ld, View.readAt_eq_ld, View.ld_unit_zero zero_offsets, View.ld_unit_zero zero_offsets]

/-! ## What the body finds in the three buffers -/

/-- Window 0 is fetched at every point: its buffer holds the point's block on the rows the fetch moves, and on the
    rest whatever words `d` the overwrite before the fetch left. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]
  try rfl

/-- Window 1's buffer holds the whole masked row table at every point (fetched once, never written). -/
theorem before0_1 (c : Dev nD) (t : Fin cfg0.N) (d) : (dats m 0 c).before 1 t d = iblk m c 1 t :=
  before0_1_of m (dats m 0 c) (A_eq m c 1) (after0_1 m c) t d

/-- The result's buffer holds nothing the proof names: at the first point it is as launched, and at every later
    point the previous point has just written it back. -/
theorem before0_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

/-! ## The stored product, entry by entry -/

/-- A filled buffer, at an index inside the part the transfer moves, reads the block there. -/
theorem fill_of_lt {Gr : Pipeline.Grid} (w : Window sig Gr) {α : Type} (i : Gr.Coords) (d : w.block.Idx → α)
    (g : (w.xblock i).Idx → α) (j : w.block.Idx) (hj : ∀ a, (j a).val < w.xsize i a) :
    w.fill i d g j = g fun a => ⟨(j a).val, hj a⟩ := by
  unfold Window.fill
  rw [dif_pos ((w.moved_iff i j).mpr hj)]

/-- Entry (p, q) of the stored product is row p of the left operand against column q of the right one: the two
    shape casts are to the operands' own shapes, the accumulator is zero, and the contraction runs over the 40
    shared positions. Row p of the product reads row p of the left operand and no other. -/
theorem pay_apply (X0 : S2456x40.Idx → EReal) (X1 : S40x640.Idx → EReal) (p : Fin 2456) (q : Fin 640) :
    k0_pay1 (F := Ideal) X0 X1 (ix2 p q) = ∑ k : Fin 40, X0 (ix2 p k) * X1 (ix2 k q) := by
  unfold k0_pay1
  rw [shapeCast_self, shapeCast_self]
  refine (Ideal.matmul_constant_zero_apply _ _ _ _ _).trans ?_
  exact PlainDot.sum_eq dot_S2456x40_S40x640_S2456x640_1_0_0_1_n_n rfl rfl rfl rfl rfl rfl X0 X1 p q

/-- Where the three windows' blocks sit, at every point of the grid: windows 0 and 2 step along the rows together
    and are cut alike at the arrays' common last row; every block starts at column 0 and spans all the columns of
    its array; window 1's one block is the whole table. -/
theorem idx_facts : ∀ t : Fin grid0.N,
    win0_0.index t (0 : Fin 2) = win0_2.index t (0 : Fin 2) ∧ win0_0.index t (1 : Fin 2) = 0 ∧ win0_2.index t (1 : Fin 2) = 0
    ∧ win0_1.index t (0 : Fin 2) = 0 ∧ win0_1.index t (1 : Fin 2) = 0
    ∧ win0_0.xsize (grid0.coords t) (0 : Fin 2) = win0_2.xsize (grid0.coords t) (0 : Fin 2)
    ∧ win0_0.xsize (grid0.coords t) (1 : Fin 2) = 40 ∧ win0_2.xsize (grid0.coords t) (1 : Fin 2) = 640 := by
  decide +kernel

/-- Window 0's block at point `t`, read off an array `A`: the entry at block coordinate `y` is the array's entry
    in row index·2456 + y₀ and column y₁. -/
theorem blk0_read (A : S131072x40.Idx → EReal) (t : Fin grid0.N) (y : (win0_0.xblock (grid0.coords t)).Idx)
    (i : S131072x40.Idx) (h0 : (i 0).val = win0_0.index t (0 : Fin 2) * 2456 + (y 0).val) (h1 : (i 1).val = (y 1).val) :
    (win0_0.blk t).view.read (Elt Ideal) A y = A i := by
  show A ((win0_0.rect t).emb y) = A i
  refine congrArg A (Shape.idx_ext₂ ?_ ?_)
  · exact (win0_0.rect_emb_val t y 0).trans h0.symm
  · refine (win0_0.rect_emb_val t y 1).trans ?_
    rw [(idx_facts t).2.1, h1]; omega

/-- Window 1's one block is the whole table: a block coordinate is the table's own index. -/
theorem blk1_read (B : S40x640.Idx → EReal) (t : Fin grid0.N) (y : (win0_1.xblock (grid0.coords t)).Idx)
    (i : S40x640.Idx) (h0 : (i 0).val = (y 0).val) (h1 : (i 1).val = (y 1).val) :
    (win0_1.blk t).view.read (Elt Ideal) B y = B i := by
  show B ((win0_1.rect t).emb y) = B i
  refine congrArg B (Shape.idx_ext₂ ?_ ?_)
  · refine (win0_1.rect_emb_val t y 0).trans ?_
    rw [(idx_facts t).2.2.2.1, h0]; omega
  · refine (win0_1.rect_emb_val t y 1).trans ?_
    rw [(idx_facts t).2.2.2.2.1, h1]; omega

/-- Where an entry of window 2's block at point `t` sits in the result array: row index·2456 + y₀, column y₁. -/
theorem blk2_emb (t : Fin grid0.N) (y : (win0_2.xblock (grid0.coords t)).Idx) :
    (((win0_2.rect t).emb y (0 : Fin 2) : Fin _) : Nat) = win0_2.index t (0 : Fin 2) * 2456 + (y 0).val
    ∧ (((win0_2.rect t).emb y (1 : Fin 2) : Fin _) : Nat) = (y 1).val := by
  refine ⟨win0_2.rect_emb_val t y 0, (win0_2.rect_emb_val t y 1).trans ?_⟩
  rw [(idx_facts t).2.2.1]; omega

/-- THE VALUE FACT, at one entry, for any arrays `A` and `B`. On a row the transfers move, entry (y₀, y₁) of the
    stored product is the sum over k of the left buffer's row y₀ against the table's column y₁. Row y₀ lies inside
    the part window 0's fetch moved (the two windows are cut alike), so the left buffer there holds the array's row
    index·2456 + y₀ — the words past the moved rows are never read; window 2's block sits at the same rows of the
    result. So the entry is the whole-array product's entry at that row and column y₁. -/
theorem value_at (t : Fin grid0.N) (A : S131072x40.Idx → EReal) (B : S40x640.Idx → EReal) (d0 : S2456x40.Idx → EReal)
    (y : (win0_2.xblock (grid0.coords t)).Idx) :
    k0_pay1 (F := Ideal) (win0_0.fill (grid0.coords t) d0 ((win0_0.blk t).view.read (Elt Ideal) A))
        ((win0_1.blk t).view.read (Elt Ideal) B) (win0_2.xinj (grid0.coords t) y)
      = (win0_2.blk t).view.read (Elt Ideal) (ScaleSpec.dotVal A B) y := by
  obtain ⟨h02, h01, h21, h10, h11, hx, hx01, hx21⟩ := idx_facts t
  obtain ⟨he0, he1⟩ := blk2_emb t y
  have hy0 : (y 0).val < win0_2.xsize (grid0.coords t) (0 : Fin 2) := (y 0).isLt
  have hy1 : (y 1).val < win0_2.xsize (grid0.coords t) (1 : Fin 2) := (y 1).isLt
  have hp : (y 0).val < 2456 := lt_of_lt_of_le hy0 (win0_2.xsize_le (grid0.coords t) 0)
  have hq : (y 1).val < 640 := by rw [hx21] at hy1; exact hy1
  have hxinj : (win0_2.xinj (grid0.coords t) y : S2456x640.Idx) = ix2 (n0 := 2456) (n1 := 640) ⟨(y 0).val, hp⟩ ⟨(y 1).val, hq⟩ :=
    Shape.idx_ext₂ rfl rfl
  refine (congrArg (k0_pay1 (F := Ideal) _ _) hxinj).trans ?_
  refine (pay_apply _ _ ⟨(y 0).val, hp⟩ ⟨(y 1).val, hq⟩).trans ?_
  show _ = ScaleSpec.dotVal A B ((win0_2.rect t).emb y)
  unfold ScaleSpec.dotVal ScaleSpec.dotAt
  refine Finset.sum_congr rfl fun k _ => ?_
  -- the left factor's index (y₀, k) is inside the part window 0's fetch moved
  have hj : ∀ a : Fin 2, ((ix2 (n0 := 2456) (n1 := 40) ⟨(y 0).val, hp⟩ k : S2456x40.Idx) a).val < win0_0.xsize (grid0.coords t) a :=
    fun a => match a with
    | ⟨0, _⟩ => by show (y 0).val < win0_0.xsize (grid0.coords t) (0 : Fin 2); rw [hx]; exact hy0
    | ⟨1, _⟩ => by show k.val < win0_0.xsize (grid0.coords t) (1 : Fin 2); rw [hx01]; exact k.isLt
  refine congrArg₂ (· * ·) ?_ ?_
  · refine (fill_of_lt win0_0 (grid0.coords t) d0 _ _ hj).trans ?_
    refine blk0_read A t _ _ ?_ rfl
    show ((win0_2.rect t).emb y (0 : Fin 2) : Nat) = win0_0.index t (0 : Fin 2) * 2456 + (y 0).val
    rw [he0, h02]
  · exact blk1_read B t _ _ rfl he1

/-- THE VALUE FACT: on the rows the transfers move, what the body stores at point `t` — the product of window 0's
    buffer as fetched (any words `d0` past the moved rows) and the masked row table — is block `t` of the
    whole-array product. -/
theorem value_fact (c : Dev nD) (t : Fin cfg0.N) (d0 : S2456x40.Idx → EReal) :
    win0_2.cut (grid0.coords t) (k0_pay1 (F := Ideal) (win0_0.fill (grid0.coords t) d0 (iblk m c 0 t)) (iblk m c 1 t))
      = (win0_2.blk t).view.read (Elt Ideal) (G m c) := by
  unfold iblk G
  exact funext fun y => value_at t (xarr m c) (garr m c) d0 y

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two cut windows' buffers stated on the moved rows only, the table's buffer exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t)))))

/-- The body at any point. The two input buffers arrive holding the fetched block (filled out with some `d0`) and the
    table, the result's buffer holding anything, so the body's triple applies. Afterwards the input buffers are as
    they were: window 0's is its block on the moved rows with the same `d0` elsewhere; the result's buffer holds the
    product, which on the moved rows is block `t` of the whole-array product (the value fact) and elsewhere is
    its own filler. The invariant and what the core owes pass through unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, win0_0.cut_fill, win0_2.cut_fill]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists (k0_pay1 (F := Ideal) (win0_0.fill (grid0.coords t) d0 (iblk m c 0 t)) (iblk m c 1 t))
  rw [← value_fact m c t d0, win0_2.fill_cut]
  iexact H2

end Body

/-- The library's body obligation at every point, in the form that states each cut window's buffer only on the rows
    its transfers move. -/
theorem body_obligation (c : Dev nD) :
    BodyObligationLoose (dats m 0 c) (defs₀ (F := Ideal)) Variants.none () Set.univ := fun t => by
  rw [bigSep_W0, bigSep_W0]
  exact Body.sound_body m c t

set_option backward.isDefEq.respectTransparency.types false in
/-- Every weakly fair execution of the reference's @main terminates, with every array of the pipeline at what the
    proof data computes and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.ReferenceIdeal.Hand

end
-- ==== Proof.RefValue.lean ====
/-
  The reference's result array after its region: the 54 blocks' moved rows (2456 each, 904 for the last) cover the
  131072 rows exactly once, and each point writes back its block of the whole-array product, so the array ends
  holding that product.
-/
import proofs.«140881_g2000104622588471_pallasbulk_207_2_alg».proof.Proof.RefData
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result window's printed index map and the sizes its transfers move, decided over the 54 points at once:
    point t is at block row t and block column 0; every transfer moves all 640 columns; it moves all 2456 rows
    of the block except at the last point, whose block overhangs the array's end and is cut to 904 rows. -/
theorem idx2 : ∀ t : Fin cfg0.N, win0_2.index t (0 : Fin 2) = t.val ∧ win0_2.index t (1 : Fin 2) = 0
    ∧ win0_2.xsize (grid0.coords t) (1 : Fin 2) = 640
    ∧ win0_2.xsize (grid0.coords t) (0 : Fin 2) = (if t.val = 53 then 904 else 2456) :=
  (by decide +kernel : ∀ t : Fin grid0.N, win0_2.index t (0 : Fin 2) = t.val ∧ win0_2.index t (1 : Fin 2) = 0
    ∧ win0_2.xsize (grid0.coords t) (1 : Fin 2) = 640
    ∧ win0_2.xsize (grid0.coords t) (0 : Fin 2) = (if t.val = 53 then 904 else 2456))

/-- An index of the array is in the moved part of point t's block iff, on each axis, its coordinate is at or past
    the block's first coordinate and before the end of what the transfer moves. -/
theorem mem_blk2 (t : Fin cfg0.N) (i : S131072x640.Idx) :
    i ∈ ((cfg0.win 2).blk t).view.set ↔ ∀ a : Fin 2, win0_2.index t a * S2456x640.size a ≤ (i a).val
      ∧ (i a).val < win0_2.index t a * S2456x640.size a + win0_2.xsize (grid0.coords t) a := by
  show i ∈ ((View.whole main_v18).slice (win0_2.rect t)).set ↔ _
  rw [View.set_slice_whole, Rect.mem_set_unit]
  exact Iff.rfl

/-- Every index of the result array lies in the moved part of some point's block: row r in block r / 2456. -/
theorem cover2 (i : S131072x640.Idx) :
    ∃ t : Fin cfg0.N, (cfg0.win 2).flush t = true ∧ i ∈ ((cfg0.win 2).blk t).view.set := by
  -- the row is below 131072 = 53 * 2456 + 904, so its quotient by 2456 is a point of the grid
  have hi0 : (i 0).val < 131072 := idx2_lt0 i
  have hi1 : (i 1).val < 640 := idx2_lt1 i
  have hN : cfg0.N = 54 := N_0
  have ht : (i 0).val / 2456 < cfg0.N := by rw [hN]; omega
  refine ⟨⟨(i 0).val / 2456, ht⟩, flush0_2 _, ?_⟩
  rw [mem_blk2]
  obtain ⟨e0, e1, e2, e3⟩ := idx2 ⟨(i 0).val / 2456, ht⟩
  have ev : (⟨(i 0).val / 2456, ht⟩ : Fin cfg0.N).val = (i 0).val / 2456 := rfl
  rw [ev] at e0 e3
  intro a
  match a with
  | ⟨0, _⟩ =>
    -- rows: block q = r / 2456 starts at q * 2456 ≤ r; r is before its end, and at q = 53 before 130168 + 904
    show win0_2.index ⟨(i 0).val / 2456, ht⟩ (0 : Fin 2) * 2456 ≤ (i 0).val
      ∧ (i 0).val < win0_2.index ⟨(i 0).val / 2456, ht⟩ (0 : Fin 2) * 2456 + win0_2.xsize (grid0.coords ⟨(i 0).val / 2456, ht⟩) (0 : Fin 2)
    rw [e0, e3]
    split <;> omega
  | ⟨1, _⟩ =>
    -- columns: the one block column holds all 640
    show win0_2.index ⟨(i 0).val / 2456, ht⟩ (1 : Fin 2) * 640 ≤ (i 1).val
      ∧ (i 1).val < win0_2.index ⟨(i 0).val / 2456, ht⟩ (1 : Fin 2) * 640 + win0_2.xsize (grid0.coords ⟨(i 0).val / 2456, ht⟩) (1 : Fin 2)
    rw [e1, e2]
    omega

/-- After the last write-back the result array holds the whole-array product. -/
theorem final (c : Dev nD) : (dats m 0 c).arrAt 2 cfg0.N = G m c :=
  (dats m 0 c).arrAt_eq_of_cover 2 (G m c) (fun t _ => flushed2 m c t) cover2

end Cert.ReferenceIdeal.Hand

end
-- ==== Proof.RefRun.lean ====
/-
  The reference's run with its result array named: after the region the result array holds the whole-array product,
  and the three arguments hold what they held.
-/
import proofs.«140881_g2000104622588471_pallasbulk_207_2_alg».proof.Proof.RefFrame
import proofs.«140881_g2000104622588471_pallasbulk_207_2_alg».proof.Proof.RefValue

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- Every weakly fair execution of the reference terminates with the result array at `G`; no host line and no
    write-back touches an argument. -/
theorem run : θ_run defs (onTc (τ := τ) (main (F := Ideal))) ⟨m, fun _ => 0, ρ⟩ fun r => ∀ c : Dev nD,
      r.2.mem ((c.tc : Thread nD τ).loc main_v18) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.ReferenceIdeal.Hand

end
-- ==== Proof.Host.lean ====
/-
  The host lines before each program's region, read as values.

  Both programs build the same two things on the host: the 0/1 mask M[d, j] (lane j belongs to feature d) and the
  gathered row ge[j] = weight[offsets[j / 16], j mod 16] laid out flat. The kernel's program then reads the mask as
  the numbers 0 and 1; the reference's keeps ge[j] where the mask holds and 0 elsewhere, and reads the integer
  table as reals. The mask depends on no input; the row depends on `weight` and `offsets` only, so the two
  programs' rows agree when their arguments do. Each entry of the row is an entry of `weight`, hence a real number
  when every entry of `weight` is.
-/
import proofs.«140881_g2000104622588471_pallasbulk_207_2_alg».proof.Defs
import proofs.«140881_g2000104622588471_pallasbulk_207_2_alg».proof.Proof.Gen.KernelIdeal.Frame
import proofs.«140881_g2000104622588471_pallasbulk_207_2_alg».proof.Proof.Gen.ReferenceIdeal.Frame
import proofs.«140881_g2000104622588471_pallasbulk_207_2_alg».proof.Proof.Gen.Pre_finite_inputs
import proofs.«140881_g2000104622588471_pallasbulk_207_2_alg».proof.Proof.Spec
import Idealize.ShloMosaic.Lib.StableHlo.Run
import Idealize.ShloMosaic.Lib.ReduceAll
import Idealize.ShloMosaic.Lib.ValueIdx
import Idealize.ShloMosaic.Lib.Pipeline.Value

set_option maxRecDepth 16384

noncomputable section

namespace Cert.HostBridge

open Idealize.ShloMosaic Idealize.ShloMosaic.TcCoe Idealize.ShloMosaic.ValueIdx Idealize.SL.Sem
open ScaleSpec (SX SM SG SO S0)

/-! ## The shared pieces, at any float instance -/

section AnyInstance

variable {F : FTy → Type} [FloatOps F]
variable (m : (ℓ : Loc Cert.KernelIdeal.nD Cert.KernelIdeal.τ Cert.KernelIdeal.sig) → Buf (Elt F) ℓ)
variable (m' : (ℓ : Loc Cert.ReferenceIdeal.nD Cert.ReferenceIdeal.τ Cert.ReferenceIdeal.sig) → Buf (Elt F) ℓ)

/-- The mask as the kernel's program computes it. -/
abbrev kmask (c : Dev Cert.KernelIdeal.nD) : SM.Idx → BitVec 1 := Cert.KernelIdeal.Gen.V m c Cert.KernelIdeal.main_v15
/-- The mask as the reference computes it. -/
abbrev rmask (c : Dev Cert.ReferenceIdeal.nD) : SM.Idx → BitVec 1 := Cert.ReferenceIdeal.Gen.V m' c Cert.ReferenceIdeal.main_v15
/-- The gathered row as the kernel's program computes it. -/
abbrev kge (c : Dev Cert.KernelIdeal.nD) : SG.Idx → F .f32 := Cert.KernelIdeal.Gen.V m c Cert.KernelIdeal.main_v7
/-- The gathered row as the reference computes it. -/
abbrev rge (c : Dev Cert.ReferenceIdeal.nD) : SG.Idx → F .f32 := Cert.ReferenceIdeal.Gen.V m' c Cert.ReferenceIdeal.main_v7

/-- The two programs compute one mask: the same operations on the same constants. -/
theorem mask_eq (c : Dev 1) : kmask m c = rmask m' c := by
  -- both sides are folds of their program's host lines; read out at the mask's buffer they are one term
  dsimp only [kmask, rmask, Cert.KernelIdeal.Gen.V, Cert.ReferenceIdeal.Gen.V]
  simp only [Cert.KernelIdeal.Gen.hostOps0, Cert.KernelIdeal.Gen.hostOps0_1, Cert.KernelIdeal.Gen.hostOps0_2,
    Cert.ReferenceIdeal.Gen.hostOps0, Cert.ReferenceIdeal.Gen.hostOps0_1, Cert.ReferenceIdeal.Gen.hostOps0_2,
    Cert.ReferenceIdeal.Gen.hostOps0_3, Cert.ReferenceIdeal.Gen.hostOps0_4,
    List.flatten_cons, List.flatten_nil, List.append_nil, List.cons_append, List.nil_append]
  after_results_simp

/-- The two programs compute one row from arguments that agree. -/
theorem ge_eq (c : Dev 1)
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)) :
    kge m c = rge m' c := by
  -- the two argument arrays, spelled as the folds read them
  have e1 : m' (c, Proc.devRef .tc Cert.ReferenceIdeal.main_arg1) = m (c, Proc.devRef .tc Cert.KernelIdeal.main_arg1) := h1
  have e2 : m' (c, Proc.devRef .tc Cert.ReferenceIdeal.main_arg2) = m (c, Proc.devRef .tc Cert.KernelIdeal.main_arg2) := h2
  dsimp only [kge, rge, Cert.KernelIdeal.Gen.V, Cert.ReferenceIdeal.Gen.V]
  simp only [Cert.KernelIdeal.Gen.hostOps0, Cert.KernelIdeal.Gen.hostOps0_1, Cert.KernelIdeal.Gen.hostOps0_2,
    Cert.ReferenceIdeal.Gen.hostOps0, Cert.ReferenceIdeal.Gen.hostOps0_1, Cert.ReferenceIdeal.Gen.hostOps0_2,
    Cert.ReferenceIdeal.Gen.hostOps0_3, Cert.ReferenceIdeal.Gen.hostOps0_4,
    List.flatten_cons, List.flatten_nil, List.append_nil, List.cons_append, List.nil_append]
  after_results_simp
  -- what is left is the same gather of `weight` at the wrapped `offsets`, once over each program's arguments
  rw [e1, e2]
  rfl

end AnyInstance

/-! ## Each program's own last host lines, at the ideal instance -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's selection matrix is the mask read as the numbers 0 and 1. -/
theorem ker_sel (c : Dev Cert.KernelIdeal.nD) :
    (Cert.KernelIdeal.Gen.V m c Cert.KernelIdeal.main_v16 : SM.Idx → EReal) = uitofp (F := Ideal) .bf16 (kmask m c) := by
  -- the last host line converts the mask; the lines before it are the mask's own
  dsimp only [kmask, Cert.KernelIdeal.Gen.V]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp

/-- The reference's table of feature values is the integer argument read as reals. -/
theorem ref_x (c : Dev Cert.ReferenceIdeal.nD) :
    (Cert.ReferenceIdeal.Gen.V m' c Cert.ReferenceIdeal.main_v17 : SX.Idx → EReal)
      = sitofp (F := Ideal) .f32
          (m' ((c.tc : Thread Cert.ReferenceIdeal.nD Cert.ReferenceIdeal.τ).loc Cert.ReferenceIdeal.main_arg0) : SX.Idx → BitVec 32) := by
  -- the last host line converts the integer argument, which no earlier line writes
  dsimp only [Cert.ReferenceIdeal.Gen.V]
  simp only [Cert.ReferenceIdeal.Gen.hostOps0, Cert.ReferenceIdeal.Gen.hostOps0_1, Cert.ReferenceIdeal.Gen.hostOps0_2,
    Cert.ReferenceIdeal.Gen.hostOps0_3, Cert.ReferenceIdeal.Gen.hostOps0_4,
    List.flatten_cons, List.flatten_nil, List.append_nil, List.cons_append, List.nil_append]
  after_results_simp

/-- The reference's masked row table: the row where the mask holds, zero elsewhere. -/
theorem ref_gm (c : Dev Cert.ReferenceIdeal.nD) :
    (Cert.ReferenceIdeal.Gen.V m' c Cert.ReferenceIdeal.main_v16 : SM.Idx → EReal)
      = select (rmask m' c)
          (broadcastInDim SM ![0, 1] Cert.ReferenceIdeal.Facts₀.bcast_S1x640_S40x640_0_1 (rge m' c))
          (broadcastInDim SM ![] Cert.ReferenceIdeal.Facts₀.bcast_S_S40x640 (constant (F := Ideal) S0 .f32 0x00000000#32)) := by
  -- the selection reads the mask, the row spread over the 40 features, and the zero spread over the table
  dsimp only [rmask, rge, Cert.ReferenceIdeal.Gen.V]
  simp only [Cert.ReferenceIdeal.Gen.hostOps0, Cert.ReferenceIdeal.Gen.hostOps0_1, Cert.ReferenceIdeal.Gen.hostOps0_2,
    Cert.ReferenceIdeal.Gen.hostOps0_3, Cert.ReferenceIdeal.Gen.hostOps0_4,
    List.flatten_cons, List.flatten_nil, List.append_nil, List.cons_append, List.nil_append]
  after_results_simp
  -- the called function's lines carry each value along the identity between its buffer's type and its own
  simp only [StableHlo.TRef.ofBuf, StableHlo.TRef.toBuf, cast_eq]

/-! ## Finiteness of the row -/

/-- The precondition's reduction runs over every axis: its result has one index. -/
instance subsingleton_scalarIdx : Subsingleton Cert.Pre_finite_inputs.S_.Idx := ⟨fun a b => funext fun d => d.elim0⟩

/-- An extended real whose absolute value lies strictly below what the pattern of +∞ denotes is a real number:
    the pattern denotes ⊤, and both ⊥ and ⊤ have absolute value ⊤. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- Under the precondition every entry of `weight` is a real number: the conjunction over all entries of
    "|entry| < +∞" is 1, so each conjunct is. -/
theorem weight_real (hpre : Cert.Pre_KernelIdeal m) (c : Dev Cert.KernelIdeal.nD) (i : Cert.Pre_finite_inputs.S1024x16.Idx) :
    ∃ r : ℝ, (m ((c.tc : Thread Cert.KernelIdeal.nD Cert.KernelIdeal.τ).loc Cert.KernelIdeal.main_arg1)
        : Cert.Pre_finite_inputs.S1024x16.Idx → EReal) i = (r : EReal) := by
  have h := congrFun (hpre c) ValueIdx.ix0
  dsimp only [Cert.Pre_finite_inputs.fn] at h
  exact real_of_abs_lt_inf _ (Host.reduce_andi_all _ _ _ _ _ h i)

/-- Each entry of the gathered row is an entry of `weight`: the row is a gather of `weight` laid out flat, and
    both a gather and a change of layout only move entries. -/
theorem kge_entry (c : Dev Cert.KernelIdeal.nD) (j : SG.Idx) :
    ∃ i : Cert.Pre_finite_inputs.S1024x16.Idx, kge m c j
      = (m ((c.tc : Thread Cert.KernelIdeal.nD Cert.KernelIdeal.τ).loc Cert.KernelIdeal.main_arg1)
          : Cert.Pre_finite_inputs.S1024x16.Idx → EReal) i := by
  dsimp only [kge, Cert.KernelIdeal.Gen.V]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  exact ⟨_, rfl⟩

/-- Under the precondition (every entry of `weight` finite) every entry of the gathered row is a real number. -/
theorem ge_finite (hpre : Cert.Pre_KernelIdeal m) (c : Dev Cert.KernelIdeal.nD) (q : Fin 640) :
    ∃ r : ℝ, kge m c (ix2 0 q) = (r : EReal) := by
  obtain ⟨i, hi⟩ := kge_entry m c (ix2 0 q)
  rw [hi]
  exact weight_real m hpre c i

end Cert.HostBridge

end
-- ==== Proof.Bridge.lean ====
/-
  The two result arrays are one array.

  The kernel's result is ( Σ_d x[b, d] · M[d, j] ) · ge[j] with the mask M read as 0 and 1; the reference's is
  Σ_d x[b, d] · ( ge[j] where M[d, j], else 0 ). The host lines give both programs the same mask and, from arguments
  that agree, the same row ge; under the precondition every ge[j] is a real number, and then the two arrays are equal
  by the law of the specification (the factor ge[j] moves inside a sum of real numbers).
-/
import proofs.«140881_g2000104622588471_pallasbulk_207_2_alg».proof.Proof.Host
import proofs.«140881_g2000104622588471_pallasbulk_207_2_alg».proof.Proof.KernelValue
import proofs.«140881_g2000104622588471_pallasbulk_207_2_alg».proof.Proof.RefData

noncomputable section

namespace Cert.HostBridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From memories that agree on the three arguments, the first satisfying the precondition, the kernel's result
    array and the reference's are the same function. -/
theorem G_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev 1) : Cert.ReferenceIdeal.Hand.G m' c = Cert.KernelIdeal.Hand.G m c := by
  unfold Cert.ReferenceIdeal.Hand.G Cert.KernelIdeal.Hand.G
  -- the reference's two arrays, as its host lines leave them
  have hx : (Cert.ReferenceIdeal.Hand.xarr m' c : ScaleSpec.SX.Idx → EReal)
      = sitofp (F := Ideal) .f32
          (m ((c.tc : Thread Cert.KernelIdeal.nD Cert.KernelIdeal.τ).loc Cert.KernelIdeal.main_arg0) : ScaleSpec.SX.Idx → BitVec 32) :=
    (ref_x m' c).trans (congrArg _ (hagree c).1)
  have hg : (Cert.ReferenceIdeal.Hand.garr m' c : ScaleSpec.SM.Idx → EReal)
      = select (kmask m c)
          (broadcastInDim ScaleSpec.SM ![0, 1] Cert.ReferenceIdeal.Facts₀.bcast_S1x640_S40x640_0_1 (kge m c))
          (broadcastInDim ScaleSpec.SM ![] Cert.ReferenceIdeal.Facts₀.bcast_S_S40x640 (constant (F := Ideal) ScaleSpec.S0 .f32 0x00000000#32)) := by
    rw [mask_eq m m' c, ge_eq m m' c (hagree c).2.1 (hagree c).2.2]
    exact ref_gm m' c
  -- the kernel's three arrays
  have hkx : (Cert.KernelIdeal.Hand.xarr m c : ScaleSpec.SX.Idx → BitVec 32)
      = m ((c.tc : Thread Cert.KernelIdeal.nD Cert.KernelIdeal.τ).loc Cert.KernelIdeal.main_arg0) :=
    Cert.KernelIdeal.Gen.V_main_arg0 m c
  have hks : (Cert.KernelIdeal.Hand.sarr m c : ScaleSpec.SM.Idx → EReal) = uitofp (F := Ideal) .bf16 (kmask m c) := ker_sel m c
  rw [hx, hg, hkx, hks]
  exact (ScaleSpec.kernel_eq_reference _ (kmask m c) (kge m c) _ _ (ge_finite m hpre c)).symm

end Cert.HostBridge

end
-- ==== Proof.lean ====
/-
  The certificate: a table of integer features x[b, d] (131072 × 40), an embedding table `weight` and per-feature
  row offsets give out[b, 16·d + e] = x[b, d] · weight[offsets[d], e].

  The kernel expands each row of x to 640 lanes by a product with a 0/1 selection matrix and then scales lane j by
  the gathered entry ge[j]; the reference multiplies the rows of x (as reals) by the 40 × 640 table that holds ge[j]
  in row j / 16 and zero elsewhere. Over the extended reals both are the same array once every ge[j] is a real
  number, which the precondition (every entry of `weight` finite) provides: the factor ge[j] moves inside a finite
  sum of reals. The ideal pass rewrote nothing, so the kernel's idealization is its own text read at the ideal
  instance.

  The three frames: the kernel's program at both instances runs a region whose blocks tile the arrays; the
  reference's region walks 54 blocks of 2456 rows over 131072 rows, the last one cut at the table's end, and its
  frame is proved over proof data that names the staging buffers only on the rows that are moved.
-/
import proofs.«140881_g2000104622588471_pallasbulk_207_2_alg».proof.Defs
import proofs.«140881_g2000104622588471_pallasbulk_207_2_alg».proof.Proof.Gen.Kernel
import proofs.«140881_g2000104622588471_pallasbulk_207_2_alg».proof.Proof.Gen.Kernel.Frame
import proofs.«140881_g2000104622588471_pallasbulk_207_2_alg».proof.Proof.Gen.KernelIdeal
import proofs.«140881_g2000104622588471_pallasbulk_207_2_alg».proof.Proof.Gen.KernelIdeal.Frame
import proofs.«140881_g2000104622588471_pallasbulk_207_2_alg».proof.Proof.Gen.ReferenceIdeal
import proofs.«140881_g2000104622588471_pallasbulk_207_2_alg».proof.Proof.Gen.ReferenceIdeal.Frame
import proofs.«140881_g2000104622588471_pallasbulk_207_2_alg».proof.Proof.Gen.Pre_finite_inputs
import proofs.«140881_g2000104622588471_pallasbulk_207_2_alg».proof.Proof.KernelValue
import proofs.«140881_g2000104622588471_pallasbulk_207_2_alg».proof.Proof.RefRun
import proofs.«140881_g2000104622588471_pallasbulk_207_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its region's run, read at the three arguments. -/
theorem frame_ri : Cert.frame_ReferenceIdeal := fun m ρ _ =>
  Cert.ReferenceIdeal.Gen.frame_of m ρ (Cert.ReferenceIdeal.Hand.dats m) (Cert.ReferenceIdeal.Hand.A_eq m)
    (Cert.ReferenceIdeal.Hand.run_main m ρ)

/-- The ideal pass rewrote no operation. -/
theorem preserves : Cert.preserves_Kernel_KernelIdeal := trivial

/-- Both idealized programs end with the same result array: the kernel's gated-and-scaled product, which the
    reference's product against the masked table equals. -/
theorem algebraic : Cert.algebraic_KernelIdeal_ReferenceIdeal := by
  intro m ρ m' ρ' hpre hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  exact Cert.HostBridge.G_eq m m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
